-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x256x256 : Shape := ⟨4, ![16, 32, 256, 256]⟩
abbrev S_ : Shape := ⟨0, ![]⟩

class Facts : Prop where
  bcast_S_S16x32x256x256 : S_.BroadcastsInDim S16x32x256x256 (![] : Fin 0 → Fin S16x32x256x256.rank)
  reducesTo_S16x32x256x256_S_d0_1_2_3 : S16x32x256x256.ReducesTo [0, 1, 2, 3] S_
  h_S_ : 0 < S_.numel

variable [Facts]

def fn {F : FTy → Type} [FloatOps F] (main_arg0 : FVec F S16x32x256x256 .f32) (main_arg1 : FVec F S16x32x256x256 .f32) : IVec S_ 1 :=
  let main_v0 : FVec F S16x32x256x256 .f32 := Host.absf main_arg0
  let main_cst : FVec F S_ .f32 := constant S_ .f32 0x7F800000#32
  let main_v1 : FVec F S16x32x256x256 .f32 := broadcastInDim S16x32x256x256 ![] bcast_S_S16x32x256x256 main_cst
  let main_v2 : IVec S16x32x256x256 1 := cmpf .olt main_v0 main_v1
  let main_c : IVec S_ 1 := constantI S_ 1 1#1
  let main_v3 : IVec S_ 1 := (fun x v => Host.reduce IntOp.andi x v reducesTo_S16x32x256x256_S_d0_1_2_3 h_S_) main_v2 main_c
  let main_v4 : FVec F S16x32x256x256 .f32 := Host.absf main_arg1
  let main_cst_0 : FVec F S_ .f32 := constant S_ .f32 0x7F800000#32
  let main_v5 : FVec F S16x32x256x256 .f32 := broadcastInDim S16x32x256x256 ![] bcast_S_S16x32x256x256 main_cst_0
  let main_v6 : IVec S16x32x256x256 1 := cmpf .olt main_v4 main_v5
  let main_c_1 : IVec S_ 1 := constantI S_ 1 1#1
  let main_v7 : IVec S_ 1 := (fun x v => Host.reduce IntOp.andi x v reducesTo_S16x32x256x256_S_d0_1_2_3 h_S_) main_v6 main_c_1
  let main_v8 : IVec S_ 1 := andi main_v3 main_v7
  main_v8
-- ==== Kernel.lean ====
abbrev S16x32x256x256 : Shape := ⟨4, ![16, 32, 256, 256]⟩
abbrev S512x256x256 : Shape := ⟨3, ![512, 256, 256]⟩
abbrev S512x1 : Shape := ⟨2, ![512, 1]⟩
abbrev S16x256x256 : Shape := ⟨3, ![16, 256, 256]⟩
abbrev S16x1 : Shape := ⟨2, ![16, 1]⟩
abbrev S16x256 : Shape := ⟨2, ![16, 256]⟩
abbrev S16x256x1 : Shape := ⟨3, ![16, 256, 1]⟩
abbrev S16x1x1 : Shape := ⟨3, ![16, 1, 1]⟩
abbrev S16x32 : Shape := ⟨2, ![16, 32]⟩
abbrev S_ : Shape := ⟨0, ![]⟩
abbrev S16 : Shape := ⟨1, ![16]⟩

abbrev nBuf : Space → Nat
  | .hbm => 11
  | .vmem => 6
  | .smem => 0
  | _ => 0

abbrev bufTy : (tb : Table) → Fin (tcTables nBuf tb) → BufTy
  | .hbm, ⟨0, _⟩ => ⟨S16x32x256x256, .f32⟩
  | .hbm, ⟨1, _⟩ => ⟨S16x32x256x256, .f32⟩
  | .hbm, ⟨2, _⟩ => ⟨S512x256x256, .f32⟩
  | .hbm, ⟨3, _⟩ => ⟨S512x256x256, .f32⟩
  | .hbm, ⟨4, _⟩ => ⟨S512x1, .f32⟩
  | .hbm, ⟨5, _⟩ => ⟨S16x32, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .local _ .vmem, ⟨0, _⟩ => ⟨S16x256x256, .f32⟩
  | .local _ .vmem, ⟨1, _⟩ => ⟨S16x256x256, .f32⟩
  | .local _ .vmem, ⟨2, _⟩ => ⟨S16x256x256, .f32⟩
  | .local _ .vmem, ⟨3, _⟩ => ⟨S16x256x256, .f32⟩
  | .local _ .vmem, ⟨4, _⟩ => ⟨S16x1, .f32⟩
  | .local _ .vmem, ⟨5, _⟩ => ⟨S16x1, .f32⟩
  | _, _ => ⟨S16x32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x32x256x256_S512x256x256 : S16x32x256x256.ShapeCasts S512x256x256
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  reduces_S16x256x256_S16x256 : S16x256x256.Reduces [2] S16x256
  shapeCasts_S16x256_S16x256x1 : S16x256.ShapeCasts S16x256x1
  reduces_S16x256x1_S16x1 : S16x256x1.Reduces [1] S16x1
  shapeCasts_S16x1_S16x1x1 : S16x1.ShapeCasts S16x1x1
  shapeCasts_S16x1x1_S16x1 : S16x1x1.ShapeCasts S16x1
  inb_S16x1_S16x1_0_0 : ∀ a, (![0, 0] : Fin 2 → Nat) a + S16x1.size a ≤ S16x1.size a
  h_S16x1 : 0 < S16x1.numel
  shapeCasts_S512x1_S16x32 : S512x1.ShapeCasts S16x32
  reducesTo_S16x32_S16_d1 : S16x32.ReducesTo [1] S16
  h_S_ : 0 < S_.numel
  bcast_S_S16 : S_.BroadcastsInDim S16 (![] : Fin 0 → Fin S16.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S512x256x256.size a
  hwx0_0 : ∀ i : grid0.Coords, EltTy.bits .f32 = 32 ∨ (Rect.block (s := S512x256x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S512x256x256.size a
  hwx0_1 : ∀ i : grid0.Coords, EltTy.bits .f32 = 32 ∨ (Rect.block (s := S512x256x256) S16x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S512x1.size a
  hwx0_2 : ∀ i : grid0.Coords, EltTy.bits .f32 = 32 ∨ (Rect.block (s := S512x1) S16x1.size (cc0_transform_2 i) (hinb0_2 i)).WholeWords (EltTy.packing .f32)

variable [Facts₀]

abbrev win0_0 : Pipeline.Window sig grid0 :=
  Pipeline.Window.ofSpec (Memref.whole main_v0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x32x256x256 : Shape := ⟨4, ![16, 32, 256, 256]⟩
abbrev S_ : Shape := ⟨0, ![]⟩
abbrev S16x32 : Shape := ⟨2, ![16, 32]⟩
abbrev S16 : Shape := ⟨1, ![16]⟩

abbrev nBuf : Space → Nat
  | .hbm => 25
  | .vmem => 0
  | .smem => 0
  | _ => 0

abbrev bufTy : (tb : Table) → Fin (tcTables nBuf tb) → BufTy
  | .hbm, ⟨0, _⟩ => ⟨S16x32x256x256, .f32⟩
  | .hbm, ⟨1, _⟩ => ⟨S16x32x256x256, .f32⟩
  | .hbm, ⟨2, _⟩ => ⟨S_, .f32⟩
  | .hbm, ⟨3, _⟩ => ⟨S16x32x256x256, .f32⟩
  | .hbm, ⟨4, _⟩ => ⟨S16x32x256x256, .f32⟩
  | .hbm, ⟨5, _⟩ => ⟨S_, .f32⟩
  | .hbm, ⟨6, _⟩ => ⟨S16x32x256x256, .f32⟩
  | .hbm, ⟨7, _⟩ => ⟨S16x32x256x256, .f32⟩
  | .hbm, ⟨8, _⟩ => ⟨S_, .f32⟩
  | .hbm, ⟨9, _⟩ => ⟨S16x32x256x256, .f32⟩
  | .hbm, ⟨10, _⟩ => ⟨S16x32x256x256, .f32⟩
  | .hbm, ⟨11, _⟩ => ⟨S16x32x256x256, .f32⟩
  | .hbm, ⟨12, _⟩ => ⟨S16x32x256x256, .f32⟩
  | .hbm, ⟨13, _⟩ => ⟨S16x32x256x256, .f32⟩
  | .hbm, ⟨14, _⟩ => ⟨S16x32x256x256, .f32⟩
  | .hbm, ⟨15, _⟩ => ⟨S16x32x256x256, .f32⟩
  | .hbm, ⟨16, _⟩ => ⟨S16x32x256x256, .f32⟩
  | .hbm, ⟨17, _⟩ => ⟨S16x32x256x256, .f32⟩
  | .hbm, ⟨18, _⟩ => ⟨S_, .f32⟩
  | .hbm, ⟨19, _⟩ => ⟨S16x32, .f32⟩
  | .hbm, ⟨20, _⟩ => ⟨S_, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | _, _ => ⟨S16x32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S16x32x256x256 : S_.BroadcastsInDim S16x32x256x256 (![] : Fin 0 → Fin S16x32x256x256.rank)
  reducesTo_S16x32x256x256_S16x32_d2_3 : S16x32x256x256.ReducesTo [2, 3] S16x32
  h_S_ : 0 < S_.numel
  reducesTo_S16x32_S16_d1 : S16x32.ReducesTo [1] S16
  bcast_S_S16 : S_.BroadcastsInDim S16 (![] : Fin 0 → Fin S16.rank)

variable [Facts₀]

class Facts : Prop extends Facts₀ where

variable [Facts]
-- ==== Proof.ChannelSums.lean ====
/-
  The label-smoothed binary cross-entropy term on the extended reals, and its sum over one channel's 256 × 256
  positions as ONE function of the two argument arrays, channel by channel.

  One logit `x` against one target `g` contributes `max x 0 − x·(a·g + b) + log (1 + e^(−|x|))`, where `a` and `b`
  are the two constants both programs print (the same two words on both sides, read as they stand: nothing here needs
  their values). A channel (b, c) of the [16, 32, 256, 256] arrays collects the 65 536 terms of its positions (h, w).
  The extended reals are a commutative monoid under addition, so a sum over the positions may be taken row by row
  (over w, then over h) or over all pairs at once: `sum_over_positions` is the re-indexing both readings share.
-/
import Idealize.ShloMosaic.PureOps.Ideal.Laws
import Idealize.ShloMosaic.Lib.ValueIdx

noncomputable section

open scoped BigOperators

namespace Cert.SmoothedBce

open Idealize.ShloMosaic Idealize.ShloMosaic.ValueIdx

/-- The loss term of one logit `x` against one target `g`: the smoothed target is `a·g + b`, and the term is the
    numerically stable form `max x 0 − x·t + log (1 + e^(−|x|))`, with `|x| = max x (−x)`. -/
def term (x g : EReal) : EReal :=
  (max x 0 - x * (Ideal.ofBits .f32 0x3F666666#32 * g + Ideal.ofBits .f32 0x39CCCCCD#32))
    + Ideal.log1p (Ideal.exp (-(max x (-x))))

/-- The term as a program that negates by subtracting from zero spells it: the zero word denotes `0`, and
    `0 − a = −a` on the extended reals. -/
theorem term_of_zero_sub (x g : EReal) :
    (max x (Ideal.ofBits .f32 0x00000000#32) - x * (Ideal.ofBits .f32 0x3F666666#32 * g + Ideal.ofBits .f32 0x39CCCCCD#32))
      + Ideal.log1p (Ideal.exp (Ideal.ofBits .f32 0x00000000#32 - max x (-x))) = term x g := by
  rw [Ideal.ofBits_zero_f32, zero_sub]; rfl

/-- The term as a program with a negation spells it. -/
theorem term_of_neg (x g : EReal) :
    (max x (Ideal.ofBits .f32 0x00000000#32) - x * (Ideal.ofBits .f32 0x3F666666#32 * g + Ideal.ofBits .f32 0x39CCCCCD#32))
      + Ideal.log1p (Ideal.exp (-(max x (-x)))) = term x g := by
  rw [Ideal.ofBits_zero_f32]; rfl

/-- The sum of the terms over the positions (h, w) of channel (b, c), rows outermost. -/
def chanSum (pred gt : (⟨4, ![16, 32, 256, 256]⟩ : Shape).Idx → EReal) (b : Fin 16) (c : Fin 32) : EReal :=
  ∑ h : Fin 256, ∑ w : Fin 256, term (pred (ix4 b c h w)) (gt (ix4 b c h w))

/-- The same as a [16, 32] array. -/
def chanSums (pred gt : (⟨4, ![16, 32, 256, 256]⟩ : Shape).Idx → EReal) : (⟨2, ![16, 32]⟩ : Shape).Idx → EReal :=
  fun j => chanSum pred gt (j 0) (j 1)

theorem chanSums_ix2 (pred gt : (⟨4, ![16, 32, 256, 256]⟩ : Shape).Idx → EReal) (b : Fin 16) (c : Fin 32) :
    chanSums pred gt (ix2 b c) = chanSum pred gt b c := rfl

/-- The indices of a [16, 32, 256, 256] array whose first two coordinates are the channel (b, c) are exactly the
    `(b, c, h, w)`: summing over them is summing over the pairs (h, w), rows outermost. -/
theorem sum_over_positions {α : Type} [AddCommMonoid α]
    (hr : (⟨4, ![16, 32, 256, 256]⟩ : Shape).ReducesTo [2, 3] ⟨2, ![16, 32]⟩)
    (x : (⟨4, ![16, 32, 256, 256]⟩ : Shape).Idx → α) (b : Fin 16) (c : Fin 32) :
    ∑ i ∈ Finset.univ.filter (fun i => hr.drop i = ix2 b c), x i
      = ∑ h : Fin 256, ∑ w : Fin 256, x (ix4 b c h w) := by
  refine Eq.trans ?_ (Finset.sum_product' Finset.univ Finset.univ (fun h w => x (ix4 b c h w)))
  have back : ∀ i ∈ Finset.univ.filter (fun i => hr.drop i = ix2 b c), ix4 b c (i 2) (i 3) = i := by
    intro i hi
    have hj := (Finset.mem_filter.1 hi).2
    funext a; apply Fin.ext
    match a with
    | ⟨0, _⟩ => exact ((hr.drop_apply_val_of_eq i 0 0).symm.trans (congrArg Fin.val (congrFun hj 0))).symm
    | ⟨1, _⟩ => exact ((hr.drop_apply_val_of_eq i 1 1).symm.trans (congrArg Fin.val (congrFun hj 1))).symm
    | ⟨2, _⟩ => rfl
    | ⟨3, _⟩ => rfl
  refine Finset.sum_nbij' (fun i => (i 2, i 3)) (fun p => ix4 b c p.1 p.2) ?_ ?_ back ?_ ?_
  · intro i _; exact Finset.mem_product.2 ⟨Finset.mem_univ _, Finset.mem_univ _⟩
  · intro p _
    refine Finset.mem_filter.2 ⟨Finset.mem_univ _, ?_⟩
    funext a; apply Fin.ext
    match a with
    | ⟨0, _⟩ => exact hr.drop_apply_val_of_eq _ 0 0
    | ⟨1, _⟩ => exact hr.drop_apply_val_of_eq _ 1 1
  · intro p _; rfl
  · intro i hi
    exact congrArg x (back i hi).symm

end Cert.SmoothedBce

end
-- ==== Proof.RowSums.lean ====
/-
  What the kernel body computes for one row of its block, read at the extended reals.

  The body holds a [16, 256, 256] block of logits and one of targets. It forms the loss term at every position,
  sums over the last axis (one lane sum per (r, y)), re-lays the [16, 256] result as [16, 256, 1], sums over the
  middle axis, and re-lays [16, 1] through [16, 1, 1] back to [16, 1]. So the value it stores at (r, 0) is the sum
  over y of the sum over w of the term at (r, y, w): the block's row `r` summed row by row. Each lane sum starts
  from the neutral word of addition, so no initial value appears.
-/
import proofs.«132164_j5738076307627_1_alg».proof.Proof.Gen.KernelIdeal.Skeleton
import proofs.«132164_j5738076307627_1_alg».proof.Proof.ChannelSums
import Idealize.ShloMosaic.Lib.Pipeline.Value
import Idealize.ShloMosaic.PureOps.Ideal.Laws

noncomputable section

open scoped BigOperators

namespace Cert.KernelIdeal.RowSums

open Cert.KernelIdeal Cert.KernelIdeal.Gen Idealize.ShloMosaic Idealize.ShloMosaic.ValueIdx Cert.SmoothedBce

/-- A sum over the last axis of a [16, 256, 256] vector, at (r, y), is the sum over w of the entries (r, y, w). -/
theorem sum_last (src : FVec Ideal S16x256x256 .f32) (h : S16x256x256.Reduces [2] S16x256) (r : Fin 16) (y : Fin 256) :
    multiReduction .add [2] S16x256 src 0x00000000#32 h (.inl rfl) rfl (ix2 r y) = ∑ w : Fin 256, src (ix3 r y w) := by
  refine (Ideal.multiReduction_add_single src 0x00000000#32 h (.inl rfl) rfl (ix2 r y)).trans ?_
  refine Finset.sum_congr rfl fun w _ => congrArg src ?_
  funext a; apply Fin.ext
  match a with
  | ⟨0, _⟩ => rfl
  | ⟨1, _⟩ => rfl
  | ⟨2, _⟩ => rfl

/-- A sum over the middle axis of a [16, 256, 1] vector, at (r, z), is the sum over y of the entries (r, y, z). -/
theorem sum_middle (src : FVec Ideal S16x256x1 .f32) (h : S16x256x1.Reduces [1] S16x1) (r : Fin 16) (z : Fin 1) :
    multiReduction .add [1] S16x1 src 0x00000000#32 h (.inl rfl) rfl (ix2 r z) = ∑ y : Fin 256, src (ix3 r y z) := by
  refine (Ideal.multiReduction_add_single src 0x00000000#32 h (.inl rfl) rfl (ix2 r z)).trans ?_
  refine Finset.sum_congr rfl fun y _ => congrArg src ?_
  funext a; apply Fin.ext
  match a with
  | ⟨0, _⟩ => rfl
  | ⟨1, _⟩ => rfl
  | ⟨2, _⟩ => rfl

/-- A [16, 256] vector re-laid as [16, 256, 1] keeps its entries: (r, y, 0) has the row-major position of (r, y). -/
theorem relay_column {α : Type} (v : S16x256.Idx → α) (h : S16x256.ShapeCasts S16x256x1) (r : Fin 16) (y : Fin 256) (z : Fin 1) :
    shapeCast S16x256x1 v h (ix3 r y z) = v (ix2 r y) := by
  refine shapeCast_apply v h (ix3 r y z) (ix2 r y) ?_
  rw [Shape.rowMajor_val_two, Shape.rowMajor_val_three]
  show r.val * 256 + y.val = (r.val * 256 + y.val) * 1 + z.val
  have hz := z.isLt
  omega

/-- THE BODY'S VALUE AT A ROW: the payload at (r, 0) is the block's row `r` of terms, summed over y then w. -/
theorem payload_apply (x0 x1 : FVec Ideal S16x256x256 .f32) (r : Fin 16) (z : Fin 1) :
    k0_pay1 (F := Ideal) x0 x1 (ix2 r z)
      = ∑ y : Fin 256, ∑ w : Fin 256, term (x0 (ix3 r y w)) (x1 (ix3 r y w)) := by
  unfold k0_pay1
  dsimp only
  refine (congrFun (shapeCast_shapeCast _ _ _) (ix2 r z)).trans ?_
  refine (sum_middle _ _ r z).trans ?_
  refine Finset.sum_congr rfl fun y _ => ?_
  refine (relay_column _ _ r y z).trans ?_
  refine (sum_last _ _ r y).trans ?_
  refine Finset.sum_congr rfl fun w _ => ?_
  rw [shapeCast_self x0, shapeCast_self x1]
  exact term_of_zero_sub (x0 (ix3 r y w)) (x1 (ix3 r y w))

end Cert.KernelIdeal.RowSums

end
-- ==== Proof.OutputArray.lean ====
/-
  What the kernel's [512, 1] output array holds after the whole grid has run.

  The grid has 32 points. Point `t` fetches rows `16 t … 16 t + 15` of the two [512, 256, 256] arrays the region finds
  (the arguments re-laid from [16, 32, 256, 256]: rows are the channels in row-major order) and writes back rows
  `16 t … 16 t + 15` of the output: for each row the sum of the loss terms over that row's 256 × 256 positions. So every
  block written back is the matching rows of ONE function of the two arrays (`rowSums`), the 32 blocks cover the
  512 rows, and the array ends holding that function.
-/
import proofs.«132164_j5738076307627_1_alg».proof.Proof.Gen.KernelIdeal.Frame
import proofs.«132164_j5738076307627_1_alg».proof.Proof.RowSums
import Idealize.ShloMosaic.Lib.Pipeline.Value
import Idealize.ShloMosaic.Lib.StableHlo.Run

set_option maxRecDepth 16384

noncomputable section

open scoped BigOperators

namespace Cert.KernelIdeal.OutputArray

open Cert.KernelIdeal Cert.KernelIdeal.Gen Idealize.ShloMosaic Idealize.ShloMosaic.TcCoe Idealize.ShloMosaic.ValueIdx
open Idealize.SL.Sem Cert.SmoothedBce Cert.KernelIdeal.RowSums
open Idealize.ShloMosaic.Pipeline (Dat Cfg Window)

variable (m : (ℓ : Loc nD τ sig) → Buf (Elt Ideal) ℓ)

theorem zeros2 : (![0, 0] : Fin 2 → Nat) = fun _ => 0 := funext fun a => by fin_cases a <;> rfl
theorem zeros3 : (![0, 0, 0] : Fin 3 → Nat) = fun _ => 0 := funext fun a => by fin_cases a <;> rfl

/-- Row `q` of two [512, 256, 256] arrays: the loss terms of its positions, summed over y then w. -/
def rowSum (a0 a1 : S512x256x256.Idx → EReal) (q : Fin 512) : EReal :=
  ∑ y : Fin 256, ∑ w : Fin 256, term (a0 (ix3 q y w)) (a1 (ix3 q y w))

/-- The [512, 1] array of the row sums. -/
def rowSums (a0 a1 : S512x256x256.Idx → EReal) : S512x1.Idx → EReal := fun i => rowSum a0 a1 (i 0)

/-- A block's row `r` of terms sums to row `q` of the arrays as soon as the block's entries on that row are the arrays'
    entries on row `q`. -/
theorem rowSum_of_rows (a0 a1 : S512x256x256.Idx → EReal) (x0 x1 : S16x256x256.Idx → EReal) (r : Fin 16) (q : Fin 512)
    (h0 : ∀ (y w : Fin 256), x0 (ix3 r y w) = a0 (ix3 q y w)) (h1 : ∀ (y w : Fin 256), x1 (ix3 r y w) = a1 (ix3 q y w)) :
    (∑ y : Fin 256, ∑ w : Fin 256, term (x0 (ix3 r y w)) (x1 (ix3 r y w))) = rowSum a0 a1 q := by
  unfold rowSum
  exact Finset.sum_congr rfl fun y _ => Finset.sum_congr rfl fun w _ => by rw [h0 y w, h1 y w]

/-- The printed index maps over the grid: both inputs' blocks sit at the output block's row offset and at offset 0 on
    the two position axes; the output's blocks sit in column 0, at block rows 0 … 31. -/
theorem idx_facts : ∀ t : Fin cfg0.N,
    win0_0.index t (0 : Fin 3) = win0_2.index t (0 : Fin 2) ∧ win0_0.index t (1 : Fin 3) = 0 ∧ win0_0.index t (2 : Fin 3) = 0
    ∧ win0_1.index t (0 : Fin 3) = win0_2.index t (0 : Fin 2) ∧ win0_1.index t (1 : Fin 3) = 0 ∧ win0_1.index t (2 : Fin 3) = 0
    ∧ win0_2.index t (1 : Fin 2) = 0 ∧ win0_2.index t (0 : Fin 2) ≤ 31 :=
  (by decide +kernel : ∀ t : Fin grid0.N, _)

/-- Every block row 0 … 31 of the output is some point's. -/
theorem idx_onto : ∀ q : Fin 32, ∃ t : Fin cfg0.N, win0_2.index t = ![q.val, 0] :=
  (by decide +kernel : ∀ q : Fin 32, ∃ t : Fin grid0.N, win0_2.index t = ![q.val, 0])

/-- WHAT POINT `t` WRITES BACK is block `t` of the row sums of the two arrays as the region finds them. -/
theorem flushed_eq (c : Dev nD) (t : Fin cfg0.N) :
    (dats m 0 c).flushed 2 t = ((cfg0.win 2).blk t).view.read (Elt Ideal) (rowSums (V m c main_v0) (V m c main_v1)) := by
  show (cfg0.win 2).cut (grid0.coords t) ((dats m 0 c).after 2 t) = _
  rw [after0_2]
  unfold out0_2
  rw [View.canon_unit_zero zeros2]
  simp only [View.ld_unit_zero (S := S16x256x256) zeros3]
  obtain ⟨e0, e1, e2, e3, e4, e5, e6, e7⟩ := idx_facts t
  show (k0_pay1 (F := Ideal) (iblk m c 0 t) (iblk m c 1 t) : S16x1.Idx → EReal)
      = fun j : S16x1.Idx => rowSums (V m c main_v0) (V m c main_v1) (((cfg0.win 2).blk t).view.emb j)
  funext j
  obtain ⟨r, z, rfl⟩ : ∃ (r : Fin 16) (z : Fin 1), j = ix2 r z := ⟨j 0, j 1, eq_ix2 j⟩
  refine (payload_apply (iblk m c 0 t) (iblk m c 1 t) r z).trans ?_
  show _ = rowSum (V m c main_v0) (V m c main_v1) ((((cfg0.win 2).blk t).view.emb (ix2 r z)) 0)
  refine rowSum_of_rows (V m c main_v0) (V m c main_v1) (iblk m c 0 t) (iblk m c 1 t) r
    ((((cfg0.win 2).blk t).view.emb (ix2 r z)) 0) ?_ ?_
  · intro y w
    show V m c main_v0 (((cfg0.win 0).blk t).view.emb (ix3 r y w)) = _
    refine congrArg (V m c main_v0) ?_
    funext a; apply Fin.ext
    match a with
    | ⟨0, _⟩ => show win0_0.index t (0 : Fin 3) * 16 + 1 * r.val = win0_2.index t (0 : Fin 2) * 16 + 1 * r.val; omega
    | ⟨1, _⟩ => show win0_0.index t (1 : Fin 3) * 256 + 1 * y.val = y.val; omega
    | ⟨2, _⟩ => show win0_0.index t (2 : Fin 3) * 256 + 1 * w.val = w.val; omega
  · intro y w
    show V m c main_v1 (((cfg0.win 1).blk t).view.emb (ix3 r y w)) = _
    refine congrArg (V m c main_v1) ?_
    funext a; apply Fin.ext
    match a with
    | ⟨0, _⟩ => show win0_1.index t (0 : Fin 3) * 16 + 1 * r.val = win0_2.index t (0 : Fin 2) * 16 + 1 * r.val; omega
    | ⟨1, _⟩ => show win0_1.index t (1 : Fin 3) * 256 + 1 * y.val = y.val; omega
    | ⟨2, _⟩ => show win0_1.index t (2 : Fin 3) * 256 + 1 * w.val = w.val; omega

/-- An index of the output array is in point `t`'s block iff each coordinate is in the block's range on its axis. -/
theorem mem_blk (t : Fin cfg0.N) (i : S512x1.Idx) :
    i ∈ ((cfg0.win 2).blk t).view.set
      ↔ ∀ a : Fin 2, win0_2.index t a * S16x1.size a ≤ (i a).val ∧ (i a).val < win0_2.index t a * S16x1.size a + S16x1.size a := by
  show i ∈ ((View.whole main_v2).slice (win0_2.rect t)).set ↔ _
  rw [View.set_slice_whole, Rect.mem_set_unit]
  exact Iff.rfl

/-- Row `i 0` lies in the block of the point whose block row is `i 0 / 16`: the blocks cover the array. -/
theorem cover (i : S512x1.Idx) : ∃ t : Fin cfg0.N, (cfg0.win 2).flush t = true ∧ i ∈ ((cfg0.win 2).blk t).view.set := by
  have hi0 : (i 0).val < 512 := (i 0).isLt
  have hi1 : (i 1).val < 1 := (i 1).isLt
  obtain ⟨t, ht⟩ := idx_onto ⟨(i 0).val / 16, by omega⟩
  have q0 : win0_2.index t (0 : Fin 2) = (i 0).val / 16 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 16 ≤ (i 0).val ∧ (i 0).val < win0_2.index t (0 : Fin 2) * 16 + 16; omega
  | ⟨1, _⟩ => show win0_2.index t (1 : Fin 2) * 1 ≤ (i 1).val ∧ (i 1).val < win0_2.index t (1 : Fin 2) * 1 + 1; omega

/-- THE ARRAY after the run: the row sums of the two arrays the region found. -/
theorem final (c : Dev nD) : (dats m 0 c).arrAt 2 cfg0.N = rowSums (V m c main_v0) (V m c main_v1) :=
  (dats m 0 c).arrAt_eq_of_cover 2 _ (fun t _ => flushed_eq m c t) cover

/-- The arrays the region finds are the arguments re-laid as [512, 256, 256]. -/
theorem entry_logits (c : Dev nD) :
    (V m c main_v0 : S512x256x256.Idx → EReal)
      = shapeCast S512x256x256 (m ((c : Thread nD τ).loc main_arg0)) Facts₀.shapeCasts_S16x32x256x256_S512x256x256 := by
  show StableHlo.after hostOps0 (fun b => m (c, b)) (Proc.devRef .tc main_v0) = _
  after_results
  rfl

theorem entry_targets (c : Dev nD) :
    (V m c main_v1 : S512x256x256.Idx → EReal)
      = shapeCast S512x256x256 (m ((c : Thread nD τ).loc main_arg1)) Facts₀.shapeCasts_S16x32x256x256_S512x256x256 := by
  show StableHlo.after hostOps0 (fun b => m (c, b)) (Proc.devRef .tc main_v1) = _
  after_results
  rfl

end Cert.KernelIdeal.OutputArray

end
-- ==== Proof.ChannelMean.lean ====
/-
  The mean over the 32 channels of a [16, 32] array, as both programs end: the host's sum over the channel axis from
  the zero word, divided by the word of 32.0 broadcast over the 16 batches. Both programs apply exactly these
  operations, with these words, to their [16, 32] array of per-channel sums, so nothing here is ever opened: the
  two results are equal as soon as the two arrays are.
-/
import proofs.«132164_j5738076307627_1_alg».proof.Proof.ChannelSums
import Idealize.ShloMosaic.PureOps

noncomputable section

namespace Cert.SmoothedBce

open Idealize.ShloMosaic

/-- `(0 + ∑ c, a (b, c)) / 32`, batch by batch, spelt with the host operations of the two programs. -/
def channelMean (a : FVec Ideal ⟨2, ![16, 32]⟩ .f32) : FVec Ideal ⟨1, ![16]⟩ .f32 :=
  Host.divf (F := Ideal)
    (Host.reduceAdd (F := Ideal) (axes := [1]) a (constant (F := Ideal) ⟨0, ![]⟩ .f32 0x00000000#32) (by decide) (by decide))
    (broadcastInDim ⟨1, ![16]⟩ ![] (by decide) (constant (F := Ideal) ⟨0, ![]⟩ .f32 0x42000000#32))

end Cert.SmoothedBce

end
-- ==== Proof.KernelResult.lean ====
/-
  The kernel program's result as the channel mean of the per-channel sums.

  Before the region the two arguments are re-laid from [16, 32, 256, 256] to [512, 256, 256]: row `32 b + c` of the
  re-laid array is channel (b, c), position by position, because both have the same row-major position. After the
  region the [512, 1] array of row sums is re-laid to [16, 32]: entry (b, c) is row `32 b + c`. So the [16, 32] array
  the tail starts from is the array of per-channel sums of the arguments, and the tail is the channel mean.
-/
import proofs.«132164_j5738076307627_1_alg».proof.Proof.OutputArray
import proofs.«132164_j5738076307627_1_alg».proof.Proof.ChannelMean

set_option maxRecDepth 16384

noncomputable section

open scoped BigOperators

namespace Cert.KernelIdeal.Result

open Cert.KernelIdeal Cert.KernelIdeal.Gen Idealize.ShloMosaic Idealize.ShloMosaic.TcCoe Idealize.ShloMosaic.ValueIdx
open Idealize.SL.Sem Cert.SmoothedBce Cert.KernelIdeal.OutputArray
open Idealize.ShloMosaic.Pipeline (Dat Cfg Window)

/-- A [16, 32, 256, 256] array re-laid as [512, 256, 256]: row `q = 32 b + c` at (y, w) is channel (b, c) at (y, w). -/
theorem relaid_row {α : Type} (x : S16x32x256x256.Idx → α) (h : S16x32x256x256.ShapeCasts S512x256x256)
    (b : Fin 16) (ch : Fin 32) (y w : Fin 256) (q : Fin 512) (hq : q.val = b.val * 32 + ch.val) :
    shapeCast S512x256x256 x h (ix3 q y w) = x (ix4 b ch y w) := by
  refine shapeCast_apply x h (ix3 q y w) (ix4 b ch y w) ?_
  rw [Shape.rowMajor_val_three, Shape.rowMajor_val_four]
  show ((b.val * 32 + ch.val) * 256 + y.val) * 256 + w.val = (q.val * 256 + y.val) * 256 + w.val
  rw [hq]

/-- A [512, 1] array re-laid as [16, 32]: entry (b, c) is row `q = 32 b + c`. -/
theorem relaid_channel {α : Type} (x : S512x1.Idx → α) (h : S512x1.ShapeCasts S16x32)
    (b : Fin 16) (ch : Fin 32) (q : Fin 512) (z : Fin 1) (hq : q.val = b.val * 32 + ch.val) :
    shapeCast S16x32 x h (ix2 b ch) = x (ix2 q z) := by
  refine shapeCast_apply x h (ix2 b ch) (ix2 q z) ?_
  rw [Shape.rowMajor_val_two, Shape.rowMajor_val_two]
  show q.val * 1 + z.val = b.val * 32 + ch.val
  have hz := z.isLt
  omega

/-- Row `32 b + c` of the re-laid arguments sums to channel (b, c) of the arguments. -/
theorem rowSum_relaid (p g : S16x32x256x256.Idx → EReal) (h : S16x32x256x256.ShapeCasts S512x256x256)
    (b : Fin 16) (ch : Fin 32) (q : Fin 512) (hq : q.val = b.val * 32 + ch.val) :
    rowSum (shapeCast S512x256x256 p h) (shapeCast S512x256x256 g h) q = chanSum p g b ch := by
  unfold rowSum chanSum
  exact Finset.sum_congr rfl fun y _ => Finset.sum_congr rfl fun w _ => by
    rw [relaid_row p h b ch y w q hq, relaid_row g h b ch y w q hq]

/-- The row sums of the re-laid arguments, re-laid as [16, 32], are the per-channel sums of the arguments. -/
theorem channels_of_rows (p g : S16x32x256x256.Idx → EReal) (h : S16x32x256x256.ShapeCasts S512x256x256)
    (h' : S512x1.ShapeCasts S16x32) :
    shapeCast S16x32 (rowSums (shapeCast S512x256x256 p h) (shapeCast S512x256x256 g h)) h' = chanSums p g := by
  funext j
  obtain ⟨b, ch, rfl⟩ : ∃ (b : Fin 16) (ch : Fin 32), j = ix2 b ch := ⟨j 0, j 1, eq_ix2 j⟩
  have hq : b.val * 32 + ch.val < 512 := by
    have hb := b.isLt
    have hc := ch.isLt
    omega
  refine (relaid_channel _ h' b ch ⟨b.val * 32 + ch.val, hq⟩ 0 rfl).trans ?_
  exact rowSum_relaid p g h b ch ⟨b.val * 32 + ch.val, hq⟩ rfl

variable (m : (ℓ : Loc nD τ sig) → Buf (Elt Ideal) ℓ) (ρ : Dev nD → PrngReg)

/-- The output array after the region, over the arguments: the row sums of the re-laid arguments. -/
theorem rows_of_arguments (c : Dev nD) :
    Pipeline.withArrays (cfgs 0).spec c (V0 m c) (fun w => (dats m 0 c).arrAt w (cfgs 0).N) (Proc.tc.devRef main_v2)
      = rowSums (shapeCast S512x256x256 (m ((c : Thread nD τ).loc main_arg0)) Facts₀.shapeCasts_S16x32x256x256_S512x256x256)
          (shapeCast S512x256x256 (m ((c : Thread nD τ).loc main_arg1)) Facts₀.shapeCasts_S16x32x256x256_S512x256x256) :=
  ((Pipeline.withArrays_arr spec0 launch0.win.arr_inj c _ _ 2).trans (final m c)).trans
    (congrArg₂ rowSums (entry_logits m c) (entry_targets m c))

/-- THE KERNEL PROGRAM'S RESULT, as the host operations after the region leave it. -/
theorem result_eq (c : Dev nD) :
    Pipeline.afterTail₀ cfgs (dats m) 0 (V0 m) [hostOps1] c main_v6
      = channelMean (chanSums (m ((c : Thread nD τ).loc main_arg0)) (m ((c : Thread nD τ).loc main_arg1))) := by
  unfold Pipeline.afterTail₀
  show StableHlo.after hostOps1 _ (Proc.devRef .tc main_v6) = _
  after_results
  refine congrArg channelMean (?_ : _ = chanSums (m ((c : Thread nD τ).loc main_arg0)) (m ((c : Thread nD τ).loc main_arg1)))
  funext i
  show shapeCast S16x32 (Pipeline.withArrays (cfgs 0).spec c (V0 m c) (fun w => (dats m 0 c).arrAt w (cfgs 0).N)
      (Proc.tc.devRef main_v2)) Facts₀.shapeCasts_S512x1_S16x32 i = _
  exact (congrArg (fun a => shapeCast S16x32 a Facts₀.shapeCasts_S512x1_S16x32 i) (rows_of_arguments m c)).trans
    (congrFun (channels_of_rows _ _ _ _) i)

/-- THE RUN, READ: every weakly fair execution of the kernel program ends with its result at the channel mean of the
    per-channel sums of its arguments, and the arguments as launched. -/
theorem run : θ_run defs (onTc (τ := τ) (main (F := Ideal))) ⟨m, fun _ => 0, ρ⟩ (fun r => ∀ c : Dev nD,
      r.2.mem ((c.tc : Thread nD τ).loc main_v6)
          = channelMean (chanSums (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v6 (Pipeline.mem_restRefs_of main_v6 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Result

end
-- ==== Proof.RefSide.lean ====
/-
  The reference's result as the channel mean of the per-channel sums.

  The reference forms the loss term at every position of the [16, 32, 256, 256] arrays, sums over the two position
  axes at once into [16, 32] from the zero word, and then takes the mean over the channels. The sum over the two
  axes, at channel (b, c), runs over the indices whose first two coordinates are (b, c): the pairs (h, w). The zero
  word denotes `0`, so the initial value drops out, and the negation inside the exponential is the extended reals'.
-/
import proofs.«132164_j5738076307627_1_alg».proof.Defs
import proofs.«132164_j5738076307627_1_alg».proof.Proof.Gen.ReferenceIdeal
import proofs.«132164_j5738076307627_1_alg».proof.Proof.Gen.ReferenceIdeal.Run
import proofs.«132164_j5738076307627_1_alg».proof.Proof.Gen.ReferenceIdeal.Read
import proofs.«132164_j5738076307627_1_alg».proof.Proof.ChannelSums
import proofs.«132164_j5738076307627_1_alg».proof.Proof.ChannelMean

noncomputable section

open scoped BigOperators

namespace Cert.ReferenceIdeal.PerChannel

open Cert.ReferenceIdeal Cert.ReferenceIdeal.Gen Cert.ReferenceIdeal.Read Idealize.ShloMosaic Idealize.ShloMosaic.ValueIdx
open Cert.SmoothedBce

/-- The elementwise stage before the sums, at an index, is the loss term of the two arguments there. -/
theorem term_apply (x0 x1 : FVec Ideal S16x32x256x256 .f32) (i : S16x32x256x256.Idx) :
    val_main_v12 (F := Ideal) x0 x1 i = term (x0 i) (x1 i) := by
  simp only [val_main_v12_apply, val_main_v7_apply, val_main_v11_apply, val_main_v10_apply, val_main_v9_apply,
    val_main_v8_apply, val_main_v5_apply, val_main_v6_apply, val_main_v4_apply, val_main_cst_1_apply,
    val_main_v3_apply, val_main_v1_apply, val_main_v2_apply, val_main_cst_0_apply, val_main_v0_apply,
    val_main_cst_apply]
  exact term_of_neg (x0 i) (x1 i)

/-- THE SUM OVER THE POSITIONS: the reference's [16, 32] array is the array of per-channel sums. -/
theorem perChannel_eq (x0 x1 : FVec Ideal S16x32x256x256 .f32) :
    val_main_v13 (F := Ideal) x0 x1 = chanSums x0 x1 := by
  funext j
  obtain ⟨b, c, rfl⟩ : ∃ (b : Fin 16) (c : Fin 32), j = ix2 b c := ⟨j 0, j 1, eq_ix2 j⟩
  show Ideal.hostReduceAdd Facts₀.reducesTo_S16x32x256x256_S16x32_d2_3 (val_main_v12 (F := Ideal) x0 x1)
      (Ideal.ofBits .f32 0x00000000#32) (ix2 b c) = chanSum x0 x1 b c
  unfold Ideal.hostReduceAdd
  rw [Ideal.ofBits_zero_f32, zero_add]
  refine (sum_over_positions _ _ b c).trans ?_
  exact Finset.sum_congr rfl fun y _ => Finset.sum_congr rfl fun w _ => term_apply x0 x1 (ix4 b c y w)

/-- THE REFERENCE'S RESULT: the channel mean of the per-channel sums of its two arguments. -/
theorem result_eq (x0 x1 : FVec Ideal S16x32x256x256 .f32) :
    val_main_v16 (F := Ideal) x0 x1 = channelMean (chanSums x0 x1) := by
  unfold val_main_v16 val_main_v14
  rw [perChannel_eq]
  rfl

end Cert.ReferenceIdeal.PerChannel

end
-- ==== Proof.lean ====
/-
  A label-smoothed binary cross-entropy loss, summed over the positions of each channel and averaged over the
  channels, computed two ways over f32[16, 32, 256, 256] logits and targets: by a kernel that streams 16 channels at
  a time and sums each channel's 256 × 256 terms row by row (over w, then over y), with the mean over the 32 channels
  taken afterwards on the [16, 32] array of sums; and by a reference that sums each channel over both position axes at
  once and takes the same mean.

  On the extended reals the two are one function of the arguments. The term at a position is the same expression on
  both sides, with the same two constant words; the kernel negates `|x|` by subtracting it from zero, which is the
  negation. The sums differ only in grouping, and addition of extended reals is commutative and associative, so
  finiteness of the inputs is never used. The mean over the channels is the same operations with the same words on
  both sides and is never opened.

  The kernel's frames are the generated ones; the reference's frame is its generated run with the result dropped.
  The idealization rewrote nothing, so there is nothing to preserve.
-/
import proofs.«132164_j5738076307627_1_alg».proof.Defs
import proofs.«132164_j5738076307627_1_alg».proof.Proof.Gen.Kernel
import proofs.«132164_j5738076307627_1_alg».proof.Proof.Gen.Kernel.Skeleton
import proofs.«132164_j5738076307627_1_alg».proof.Proof.Gen.Kernel.Launch
import proofs.«132164_j5738076307627_1_alg».proof.Proof.Gen.Kernel.Points
import proofs.«132164_j5738076307627_1_alg».proof.Proof.Gen.Kernel.Frame
import proofs.«132164_j5738076307627_1_alg».proof.Proof.Gen.KernelIdeal
import proofs.«132164_j5738076307627_1_alg».proof.Proof.Gen.KernelIdeal.Skeleton
import proofs.«132164_j5738076307627_1_alg».proof.Proof.Gen.KernelIdeal.Launch
import proofs.«132164_j5738076307627_1_alg».proof.Proof.Gen.KernelIdeal.Points
import proofs.«132164_j5738076307627_1_alg».proof.Proof.Gen.KernelIdeal.Frame
import proofs.«132164_j5738076307627_1_alg».proof.Proof.Gen.ReferenceIdeal
import proofs.«132164_j5738076307627_1_alg».proof.Proof.Gen.ReferenceIdeal.Run
import proofs.«132164_j5738076307627_1_alg».proof.Proof.Gen.ReferenceIdeal.Read
import proofs.«132164_j5738076307627_1_alg».proof.Proof.Gen.Pre_finite_inputs
import proofs.«132164_j5738076307627_1_alg».proof.Proof.KernelResult
import proofs.«132164_j5738076307627_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the channel mean of the per-channel sums of their arguments; the arguments agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.PerChannel.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
